-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x3 : Shape := ⟨3, ![128, 1024, 3]⟩
abbrev S2x8000000 : Shape := ⟨2, ![2, 8000000]⟩
abbrev S_ : Shape := ⟨0, ![]⟩

class Facts : Prop where
  bcast_S_S128x1024x3 : S_.BroadcastsInDim S128x1024x3 (![] : Fin 0 → Fin S128x1024x3.rank)
  reducesTo_S128x1024x3_S_d0_1_2 : S128x1024x3.ReducesTo [0, 1, 2] S_
  h_S_ : 0 < S_.numel
  bcast_S_S2x8000000 : S_.BroadcastsInDim S2x8000000 (![] : Fin 0 → Fin S2x8000000.rank)
  reducesTo_S2x8000000_S_d0_1 : S2x8000000.ReducesTo [0, 1] S_

variable [Facts]

def fn {F : FTy → Type} [FloatOps F] (main_arg0 : FVec F S128x1024x3 .f32) (main_arg1 : IVec S2x8000000 32) : IVec S_ 1 :=
  let main_v0 : FVec F S128x1024x3 .f32 := Host.absf main_arg0
  let main_cst : FVec F S_ .f32 := constant S_ .f32 0x7F800000#32
  let main_v1 : FVec F S128x1024x3 .f32 := broadcastInDim S128x1024x3 ![] bcast_S_S128x1024x3 main_cst
  let main_v2 : IVec S128x1024x3 1 := cmpf .olt main_v0 main_v1
  let main_c : IVec S_ 1 := constantI S_ 1 1#1
  let main_v3 : IVec S_ 1 := (fun x v => Host.reduce IntOp.andi x v reducesTo_S128x1024x3_S_d0_1_2 h_S_) main_v2 main_c
  let main_c_0 : IVec S_ 32 := constantI S_ 32 0#32
  let main_v4 : IVec S2x8000000 32 := broadcastInDim S2x8000000 ![] bcast_S_S2x8000000 main_c_0
  let main_v5 : IVec S2x8000000 1 := cmpi .sge main_arg1 main_v4
  let main_c_1 : IVec S_ 32 := constantI S_ 32 131072#32
  let main_v6 : IVec S2x8000000 32 := broadcastInDim S2x8000000 ![] bcast_S_S2x8000000 main_c_1
  let main_v7 : IVec S2x8000000 1 := cmpi .slt main_arg1 main_v6
  let main_v8 : IVec S2x8000000 1 := andi main_v5 main_v7
  let main_c_2 : IVec S_ 1 := constantI S_ 1 1#1
  let main_v9 : IVec S_ 1 := (fun x v => Host.reduce IntOp.andi x v reducesTo_S2x8000000_S_d0_1 h_S_) main_v8 main_c_2
  let main_v10 : IVec S_ 1 := andi main_v3 main_v9
  main_v10
-- ==== Kernel.lean ====
abbrev S128x1024x3 : Shape := ⟨3, ![128, 1024, 3]⟩
abbrev S2x8000000 : Shape := ⟨2, ![2, 8000000]⟩
abbrev S3x128x1024 : Shape := ⟨3, ![3, 128, 1024]⟩
abbrev S3x131072 : Shape := ⟨2, ![3, 131072]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S1 : Shape := ⟨1, ![1]⟩
abbrev S1x1 : Shape := ⟨2, ![1, 1]⟩
abbrev S3x8000000 : Shape := ⟨2, ![3, 8000000]⟩
abbrev S3x80000 : Shape := ⟨2, ![3, 80000]⟩
abbrev S1x80000 : Shape := ⟨2, ![1, 80000]⟩
abbrev S80000 : Shape := ⟨1, ![80000]⟩
abbrev S8000000x3 : Shape := ⟨2, ![8000000, 3]⟩

abbrev nBuf : Space → Nat
  | .hbm => 58
  | .vmem => 8
  | .smem => 0
  | _ => 0

abbrev bufTy : (tb : Table) → Fin (tcTables nBuf tb) → BufTy
  | .hbm, ⟨0, _⟩ => ⟨S128x1024x3, .f32⟩
  | .hbm, ⟨1, _⟩ => ⟨S2x8000000, .i32⟩
  | .hbm, ⟨2, _⟩ => ⟨S3x128x1024, .f32⟩
  | .hbm, ⟨3, _⟩ => ⟨S3x131072, .f32⟩
  | .hbm, ⟨4, _⟩ => ⟨S1x8000000, .i32⟩
  | .hbm, ⟨5, _⟩ => ⟨S8000000, .i32⟩
  | .hbm, ⟨6, _⟩ => ⟨S1x8000000, .i32⟩
  | .hbm, ⟨7, _⟩ => ⟨S8000000, .i32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S1, .i32⟩
  | .hbm, ⟨17, _⟩ => ⟨S_, .i32⟩
  | .hbm, ⟨18, _⟩ => ⟨S8000000x1, .i32⟩
  | .hbm, ⟨19, _⟩ => ⟨S8000000x1, .i1⟩
  | .hbm, ⟨20, _⟩ => ⟨S1x1, .i32⟩
  | .hbm, ⟨21, _⟩ => ⟨S8000000x1, .i32⟩
  | .hbm, ⟨22, _⟩ => ⟨S8000000x1, .i1⟩
  | .hbm, ⟨23, _⟩ => ⟨S8000000x1, .i1⟩
  | .hbm, ⟨24, _⟩ => ⟨S_, .i1⟩
  | .hbm, ⟨25, _⟩ => ⟨S8000000, .i1⟩
  | .hbm, ⟨26, _⟩ => ⟨S3x8000000, .f32⟩
  | .hbm, ⟨27, _⟩ => ⟨S3x8000000, .i1⟩
  | .hbm, ⟨28, _⟩ => ⟨S_, .f32⟩
  | .hbm, ⟨29, _⟩ => ⟨S3x8000000, .f32⟩
  | .hbm, ⟨30, _⟩ => ⟨S3x8000000, .f32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i32⟩
  | .hbm, ⟨37, _⟩ => ⟨S8000000, .i32⟩
  | .hbm, ⟨38, _⟩ => ⟨S8000000x1, .i32⟩
  | .hbm, ⟨39, _⟩ => ⟨S1, .i32⟩
  | .hbm, ⟨40, _⟩ => ⟨S_, .i32⟩
  | .hbm, ⟨41, _⟩ => ⟨S8000000x1, .i32⟩
  | .hbm, ⟨42, _⟩ => ⟨S8000000x1, .i1⟩
  | .hbm, ⟨43, _⟩ => ⟨S1x1, .i32⟩
  | .hbm, ⟨44, _⟩ => ⟨S8000000x1, .i32⟩
  | .hbm, ⟨45, _⟩ => ⟨S8000000x1, .i1⟩
  | .hbm, ⟨46, _⟩ => ⟨S8000000x1, .i1⟩
  | .hbm, ⟨47, _⟩ => ⟨S_, .i1⟩
  | .hbm, ⟨48, _⟩ => ⟨S8000000, .i1⟩
  | .hbm, ⟨49, _⟩ => ⟨S3x8000000, .f32⟩
  | .hbm, ⟨50, _⟩ => ⟨S3x8000000, .i1⟩
  | .hbm, ⟨51, _⟩ => ⟨S_, .f32⟩
  | .hbm, ⟨52, _⟩ => ⟨S3x8000000, .f32⟩
  | .hbm, ⟨53, _⟩ => ⟨S3x8000000, .f32⟩
  | .hbm, ⟨54, _⟩ => ⟨S3x8000000, .f32⟩
  | .hbm, ⟨55, _⟩ => ⟨S1x8000000, .f32⟩
  | .hbm, ⟨56, _⟩ => ⟨S8000000, .f32⟩
  | .hbm, ⟨57, _⟩ => ⟨S8000000x3, .f32⟩
  | .local _ .vmem, ⟨0, _⟩ => ⟨S3x80000, .f32⟩
  | .local _ .vmem, ⟨1, _⟩ => ⟨S3x80000, .f32⟩
  | .local _ .vmem, ⟨2, _⟩ => ⟨S3x80000, .f32⟩
  | .local _ .vmem, ⟨3, _⟩ => ⟨S3x80000, .f32⟩
  | .local _ .vmem, ⟨4, _⟩ => ⟨S3x80000, .f32⟩
  | .local _ .vmem, ⟨5, _⟩ => ⟨S3x80000, .f32⟩
  | .local _ .vmem, ⟨6, _⟩ => ⟨S1x80000, .f32⟩
  | .local _ .vmem, ⟨7, _⟩ => ⟨S1x80000, .f32⟩
  | _, _ => ⟨S128x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v6 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v7 : Ref sig .tc := ⟨.hbm, 53, rfl⟩
abbrev main_v8_0 : Ref sig .tc := ⟨.hbm, 54, rfl⟩
abbrev main_v8_1 : Ref sig .tc := ⟨.hbm, 55, rfl⟩
abbrev main_v9 : Ref sig .tc := ⟨.hbm, 56, rfl⟩
abbrev main_v10 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x1024x3_S3x128x1024_2_0_1 : S128x1024x3.Transposes [2, 0, 1] S3x128x1024
  shapeCasts_S3x128x1024_S3x131072 : S3x128x1024.ShapeCasts S3x131072
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S3x8000000_1 : S8000000.BroadcastsInDim S3x8000000 (![1] : Fin 1 → Fin S3x8000000.rank)
  bcast_S_S3x8000000 : S_.BroadcastsInDim S3x8000000 (![] : Fin 0 → Fin S3x8000000.rank)
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  reduces_S3x80000_S80000 : S3x80000.Reduces [0] S80000
  shapeCasts_S80000_S1x80000 : S80000.ShapeCasts S1x80000
  inb_S1x80000_S1x80000_0_0 : ∀ a, (![0, 0] : Fin 2 → Nat) a + S1x80000.size a ≤ S1x80000.size a
  h_S1x80000 : 0 < S1x80000.numel
  transposes_S3x8000000_S8000000x3_1_0 : S3x8000000.Transposes [1, 0] S8000000x3
  gather_S3x131072_S8000000x1_S3x8000000_0_1_n_n_1_1_31_wf : GatherDims.WF S3x131072 S8000000x1 S3x8000000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x8000000.size a
  hwx0_0 : ∀ i : grid0.Coords, EltTy.bits .f32 = 32 ∨ (Rect.block (s := S3x8000000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x8000000.size a
  hwx0_1 : ∀ i : grid0.Coords, EltTy.bits .f32 = 32 ∨ (Rect.block (s := S3x8000000) S3x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x80000.size a ≤ S3x8000000.size a
  hwx0_2 : ∀ i : grid0.Coords, EltTy.bits .f32 = 32 ∨ (Rect.block (s := S3x8000000) S3x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80000.size a ≤ S1x8000000.size a
  hwx0_3 : ∀ i : grid0.Coords, EltTy.bits .f32 = 32 ∨ (Rect.block (s := S1x8000000) S1x80000.size (cc0_transform_3 i) (hinb0_3 i)).WholeWords (EltTy.packing .f32)

variable [Facts₀]

def gather_S3x131072_S8000000x1_S3x8000000_0_1_n_n_1_1_31 : GatherDims S3x131072 S8000000x1 S3x8000000 where
  offsetDims := [0]
  collapsedSliceDims := [1]
  operandBatchingDims := []
  startIndicesBatchingDims := []
  startIndexMap := [1]
  indexVectorDim := 1
  sliceSizes := ![3, 1]
  wf := gather_S3x131072_S8000000x1_S3x8000000_0_1_n_n_1_1_31_wf

abbrev win0_0 : Pipeline.Window sig grid0 :=
  Pipeline.Window.ofSpec (Memref.whole main_v6) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S3x80000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x80000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024x3 : Shape := ⟨3, ![128, 1024, 3]⟩
abbrev S2x8000000 : Shape := ⟨2, ![2, 8000000]⟩
abbrev S131072x3 : Shape := ⟨2, ![131072, 3]⟩
abbrev S_ : Shape := ⟨0, ![]⟩
abbrev S2x8000000x1 : Shape := ⟨3, ![2, 8000000, 1]⟩
abbrev S2x8000000x3 : Shape := ⟨3, ![2, 8000000, 3]⟩
abbrev S1x8000000x3 : Shape := ⟨3, ![1, 8000000, 3]⟩
abbrev S8000000x3 : Shape := ⟨2, ![8000000, 3]⟩
abbrev S8000000 : Shape := ⟨1, ![8000000]⟩

abbrev nBuf : Space → Nat
  | .hbm => 21
  | .vmem => 0
  | .smem => 0
  | _ => 0

abbrev bufTy : (tb : Table) → Fin (tcTables nBuf tb) → BufTy
  | .hbm, ⟨0, _⟩ => ⟨S128x1024x3, .f32⟩
  | .hbm, ⟨1, _⟩ => ⟨S2x8000000, .i32⟩
  | .hbm, ⟨2, _⟩ => ⟨S131072x3, .f32⟩
  | .hbm, ⟨3, _⟩ => ⟨S_, .i32⟩
  | .hbm, ⟨4, _⟩ => ⟨S2x8000000, .i32⟩
  | .hbm, ⟨5, _⟩ => ⟨S2x8000000, .i1⟩
  | .hbm, ⟨6, _⟩ => ⟨S_, .i32⟩
  | .hbm, ⟨7, _⟩ => ⟨S2x8000000, .i32⟩
  | .hbm, ⟨8, _⟩ => ⟨S2x8000000, .i32⟩
  | .hbm, ⟨9, _⟩ => ⟨S2x8000000, .i32⟩
  | .hbm, ⟨10, _⟩ => ⟨S2x8000000x1, .i32⟩
  | .hbm, ⟨11, _⟩ => ⟨S2x8000000x3, .f32⟩
  | .hbm, ⟨12, _⟩ => ⟨S1x8000000x3, .f32⟩
  | .hbm, ⟨13, _⟩ => ⟨S8000000x3, .f32⟩
  | .hbm, ⟨14, _⟩ => ⟨S1x8000000x3, .f32⟩
  | .hbm, ⟨15, _⟩ => ⟨S8000000x3, .f32⟩
  | .hbm, ⟨16, _⟩ => ⟨S8000000x3, .f32⟩
  | .hbm, ⟨17, _⟩ => ⟨S8000000x3, .f32⟩
  | .hbm, ⟨18, _⟩ => ⟨S_, .f32⟩
  | .hbm, ⟨19, _⟩ => ⟨S8000000, .f32⟩
  | .hbm, ⟨20, _⟩ => ⟨S8000000, .f32⟩
  | _, _ => ⟨S128x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  shapeCasts_S128x1024x3_S131072x3 : S128x1024x3.ShapeCasts S131072x3
  bcast_S_S2x8000000 : S_.BroadcastsInDim S2x8000000 (![] : Fin 0 → Fin S2x8000000.rank)
  bcast_S2x8000000_S2x8000000x1_0_1 : S2x8000000.BroadcastsInDim S2x8000000x1 (![0, 1] : Fin 2 → Fin S2x8000000x1.rank)
  slices_S2x8000000x3_S1x8000000x3_0_0_0 : S2x8000000x3.Slices ![0, 0, 0] S1x8000000x3
  shapeCasts_S1x8000000x3_S8000000x3 : S1x8000000x3.ShapeCasts S8000000x3
  slices_S2x8000000x3_S1x8000000x3_1_0_0 : S2x8000000x3.Slices ![1, 0, 0] S1x8000000x3
  reducesTo_S8000000x3_S8000000_d1 : S8000000x3.ReducesTo [1] S8000000
  h_S_ : 0 < S_.numel
  gather_S131072x3_S2x8000000x1_S2x8000000x3_2_0_n_n_0_2_13_wf : GatherDims.WF S131072x3 S2x8000000x1 S2x8000000x3 [2] [0] [] [0] [] 2 ![1, 3]

variable [Facts₀]

def gather_S131072x3_S2x8000000x1_S2x8000000x3_2_0_n_n_0_2_13 : GatherDims S131072x3 S2x8000000x1 S2x8000000x3 where
  offsetDims := [2]
  collapsedSliceDims := [0]
  operandBatchingDims := []
  startIndicesBatchingDims := []
  startIndexMap := [0]
  indexVectorDim := 2
  sliceSizes := ![1, 3]
  wf := gather_S131072x3_S2x8000000x1_S2x8000000x3_2_0_n_n_0_2_13_wf

class Facts : Prop extends Facts₀ where

variable [Facts]
-- ==== Proof.PairGeometry.lean ====
/-
  The mathematics of the pair kernel, with no program in sight.

  An atom is a row `a < 131072` of the flattened position table; its molecule is `a / 1024`, its place in
  the molecule `a % 1024`, and its coordinate `k` is `pos[a / 1024, a % 1024, k]`.  A pair `p` names two atoms
  by the words `idx[0, p]` and `idx[1, p]`.  jnp reads an index word the numpy way (a negative word counts from
  the end: `wrapRow`) and a gather clamps what it is given into the table (`rowOf`).  The displacement of pair
  `p` is the coordinatewise difference of its two atoms, its distance the square root of the sum of the squares
  of the three differences.  For an index word already inside the table (`InTable`) the wrap and the clamp do
  nothing, and the range test jnp.take makes before it fills with NaN passes.
-/
import Idealize.ShloMosaic.Lib.ValueIdx
import Idealize.ShloMosaic.Lib.Affine
import Idealize.ShloMosaic.PureOps.Ideal

noncomputable section

open Idealize.ShloMosaic Idealize.ShloMosaic.ValueIdx

namespace Cert.PairGeometry

/-- The position table `[128, 1024, 3]`, the pair list `[2, 8000000]`, the displacements `[8000000, 3]` and the
    distances `[8000000]`. -/
abbrev SPos : Shape := ⟨3, ![128, 1024, 3]⟩
abbrev SPairs : Shape := ⟨2, ![2, 8000000]⟩
abbrev SDisp : Shape := ⟨2, ![8000000, 3]⟩
abbrev SDist : Shape := ⟨1, ![8000000]⟩

/-- jnp's reading of an index word: a negative one counts from the end of the 131072 rows. -/
def wrapRow (w : BitVec 32) : BitVec 32 :=
  Scalar.select (IntOp.cmpi .slt w 0#32) (IntOp.addi w 131072#32) w

/-- The row a gather reads for the index word `w`: the wrapped word, read signed and clamped into the table. -/
def rowOf (w : BitVec 32) : Fin 131072 := ⟨min (wrapRow w).toInt.toNat 131071, by omega⟩

/-- The index word names a row of the table: `0 ≤ w < 131072` as signed comparisons of words. -/
def InTable (w : BitVec 32) : Prop := IntOp.cmpi .sge w 0#32 = 1#1 ∧ IntOp.cmpi .slt w 131072#32 = 1#1

theorem InTable.bounds {w : BitVec 32} (h : InTable w) : 0 ≤ w.toInt ∧ w.toInt < 131072 := by
  obtain ⟨h0, h1⟩ := h
  rw [IntOp.cmpi_sge] at h0
  rw [IntOp.cmpi_slt] at h1
  exact ⟨h0, h1⟩

/-- A word inside the table is not negative, so jnp's wrap leaves it alone. -/
theorem InTable.wrapRow_eq {w : BitVec 32} (h : InTable w) : wrapRow w = w := by
  unfold wrapRow Scalar.select
  rw [if_neg]
  intro hc
  have := (IntOp.cmpi_slt (x := w) (y := 0#32)).mp hc
  have hb := h.bounds
  have h0 : (0#32 : BitVec 32).toInt = 0 := by decide
  omega

/-- The range test of jnp.take's fill mode, `0 ≤ w' ≤ 131071` on the wrapped word, passes. -/
theorem InTable.ge_zero {w : BitVec 32} (h : InTable w) : IntOp.cmpi .sge (wrapRow w) 0#32 = 1#1 := by
  rw [h.wrapRow_eq]; exact h.1

theorem InTable.le_last {w : BitVec 32} (h : InTable w) : IntOp.cmpi .sle (wrapRow w) 131071#32 = 1#1 := by
  rw [h.wrapRow_eq, IntOp.cmpi_sle]
  have hb := h.bounds
  have h0 : (131071#32 : BitVec 32).toInt = 131071 := by decide
  omega

/-- Coordinate `k` of atom `a`. -/
def coord (pos : FVec Ideal SPos .f32) (a : Fin 131072) (k : Fin 3) : EReal :=
  pos (ix3 ⟨a.val / 1024, by have := a.isLt; omega⟩ ⟨a.val % 1024, Nat.mod_lt _ (by decide)⟩ k)

/-- The displacement of pair `p` along coordinate `k`: first atom less second. -/
def pairDisp (pos : FVec Ideal SPos .f32) (idx : IVec SPairs 32) : FVec Ideal SDisp .f32 := fun i =>
  coord pos (rowOf (idx (ix2 0 (i 0)))) (i 1) - coord pos (rowOf (idx (ix2 1 (i 0)))) (i 1)

/-- The distance of pair `p`: the root of the sum over the three coordinates of the squared displacement. -/
def pairDist (pos : FVec Ideal SPos .f32) (idx : IVec SPairs 32) : FVec Ideal SDist .f32 := fun i =>
  Ideal.sqrt (∑ k : Fin 3, pairDisp pos idx (ix2 (i 0) k) * pairDisp pos idx (ix2 (i 0) k))

end Cert.PairGeometry

end
-- ==== Proof.GatherRows.lean ====
/-
  The two gathers, read at an index.

  The kernel's wrapper takes COLUMNS of the transposed table `[3, 131072]` (one start index per pair, the slice
  a whole column of three); the reference takes ROWS of the flat table `[131072, 3]` (one start index per entry
  of the `[2, 8000000]` pair list, the slice a whole row of three).  In both the one start-index component is
  read signed and clamped into `[0, 131071]`, the slice axis is read straight through.
-/
import proofs.«424242_j4904852652341_3_alg».proof.KernelIdeal
import proofs.«424242_j4904852652341_3_alg».proof.ReferenceIdeal
import Idealize.ShloMosaic.Lib.ValueIdx

noncomputable section

open Idealize.ShloMosaic Idealize.ShloMosaic.ValueIdx

namespace Cert.GatherRows

section Columns
open Cert.KernelIdeal
variable [Cert.KernelIdeal.Facts]

/-- Result element `(k, p)` of the column gather reads the table at `(k, clamp idx[p, 0])`. -/
theorem columns_operandIdx (j : S3x8000000.Idx) (idx : IVec S8000000x1 32) :
    gather_S3x131072_S8000000x1_S3x8000000_0_1_n_n_1_1_31.operandIdx j idx
      = (ix2 (j 0) ⟨min (idx (ix2 (j 1) 0)).toInt.toNat 131071, by omega⟩ : S3x131072.Idx) := by
  funext a
  refine Fin.ext ?_
  match a with
  | ⟨0, _⟩ =>
    show gather_S3x131072_S8000000x1_S3x8000000_0_1_n_n_1_1_31.start j idx 0
        + gather_S3x131072_S8000000x1_S3x8000000_0_1_n_n_1_1_31.batchCoord j 0
        + gather_S3x131072_S8000000x1_S3x8000000_0_1_n_n_1_1_31.offCoord j 0 = (j 0).val
    rw [GatherDims.batchCoord_eq_zero _ _ _ List.not_mem_nil]
    unfold GatherDims.start GatherDims.offCoord
    have h1 : (0 : Fin 2) ∉ gather_S3x131072_S8000000x1_S3x8000000_0_1_n_n_1_1_31.startIndexMap := by
      show (0 : Fin 2) ∉ ([1] : List (Fin 2)); decide
    have h2 : (0 : Fin 2) ∈ gather_S3x131072_S8000000x1_S3x8000000_0_1_n_n_1_1_31.sKept := by
      show (0 : Fin 2) ∈ Shape.kept (⟨2, ![3, 131072]⟩ : Shape) ([1] ++ []); decide
    rw [dif_neg h1, dif_pos h2, Nat.zero_add]
    rfl
  | ⟨1, _⟩ =>
    show gather_S3x131072_S8000000x1_S3x8000000_0_1_n_n_1_1_31.start j idx 1
        + gather_S3x131072_S8000000x1_S3x8000000_0_1_n_n_1_1_31.batchCoord j 1
        + gather_S3x131072_S8000000x1_S3x8000000_0_1_n_n_1_1_31.offCoord j 1 = min (idx (ix2 (j 1) 0)).toInt.toNat 131071
    rw [GatherDims.batchCoord_eq_zero _ _ _ List.not_mem_nil]
    unfold GatherDims.start GatherDims.offCoord
    have h1 : (1 : Fin 2) ∈ gather_S3x131072_S8000000x1_S3x8000000_0_1_n_n_1_1_31.startIndexMap := by
      show (1 : Fin 2) ∈ ([1] : List (Fin 2)); decide
    have h2 : (1 : Fin 2) ∉ gather_S3x131072_S8000000x1_S3x8000000_0_1_n_n_1_1_31.sKept := by
      show (1 : Fin 2) ∉ Shape.kept (⟨2, ![3, 131072]⟩ : Shape) ([1] ++ []); decide
    rw [dif_pos h1, dif_neg h2]
    have hsi : gather_S3x131072_S8000000x1_S3x8000000_0_1_n_n_1_1_31.siIdx j
        ⟨List.idxOf (1 : Fin 2) gather_S3x131072_S8000000x1_S3x8000000_0_1_n_n_1_1_31.startIndexMap,
          List.idxOf_lt_length_iff.2 h1⟩ = ix2 (j 1) 0 := by
      funext b; refine Fin.ext ?_
      match b with
      | ⟨0, _⟩ => rfl
      | ⟨1, _⟩ => rfl
    rw [hsi]
    rfl

end Columns

section Rows
open Cert.ReferenceIdeal
variable [Cert.ReferenceIdeal.Facts]

/-- Result element `(s, p, k)` of the row gather reads the table at `(clamp idx[s, p, 0], k)`. -/
theorem rows_operandIdx (j : S2x8000000x3.Idx) (idx : IVec S2x8000000x1 32) :
    gather_S131072x3_S2x8000000x1_S2x8000000x3_2_0_n_n_0_2_13.operandIdx j idx
      = (ix2 ⟨min (idx (ix3 (j 0) (j 1) 0)).toInt.toNat 131071, by omega⟩ (j 2) : S131072x3.Idx) := by
  funext a
  refine Fin.ext ?_
  match a with
  | ⟨0, _⟩ =>
    show gather_S131072x3_S2x8000000x1_S2x8000000x3_2_0_n_n_0_2_13.start j idx 0
        + gather_S131072x3_S2x8000000x1_S2x8000000x3_2_0_n_n_0_2_13.batchCoord j 0
        + gather_S131072x3_S2x8000000x1_S2x8000000x3_2_0_n_n_0_2_13.offCoord j 0 = min (idx (ix3 (j 0) (j 1) 0)).toInt.toNat 131071
    rw [GatherDims.batchCoord_eq_zero _ _ _ List.not_mem_nil]
    unfold GatherDims.start GatherDims.offCoord
    have h1 : (0 : Fin 2) ∈ gather_S131072x3_S2x8000000x1_S2x8000000x3_2_0_n_n_0_2_13.startIndexMap := by
      show (0 : Fin 2) ∈ ([0] : List (Fin 2)); decide
    have h2 : (0 : Fin 2) ∉ gather_S131072x3_S2x8000000x1_S2x8000000x3_2_0_n_n_0_2_13.sKept := by
      show (0 : Fin 2) ∉ Shape.kept (⟨2, ![131072, 3]⟩ : Shape) ([0] ++ []); decide
    rw [dif_pos h1, dif_neg h2]
    have hsi : gather_S131072x3_S2x8000000x1_S2x8000000x3_2_0_n_n_0_2_13.siIdx j
        ⟨List.idxOf (0 : Fin 2) gather_S131072x3_S2x8000000x1_S2x8000000x3_2_0_n_n_0_2_13.startIndexMap,
          List.idxOf_lt_length_iff.2 h1⟩ = ix3 (j 0) (j 1) 0 := by
      funext b; refine Fin.ext ?_
      match b with
      | ⟨0, _⟩ => rfl
      | ⟨1, _⟩ => rfl
      | ⟨2, _⟩ => rfl
    rw [hsi]
    rfl
  | ⟨1, _⟩ =>
    show gather_S131072x3_S2x8000000x1_S2x8000000x3_2_0_n_n_0_2_13.start j idx 1
        + gather_S131072x3_S2x8000000x1_S2x8000000x3_2_0_n_n_0_2_13.batchCoord j 1
        + gather_S131072x3_S2x8000000x1_S2x8000000x3_2_0_n_n_0_2_13.offCoord j 1 = (j 2).val
    rw [GatherDims.batchCoord_eq_zero _ _ _ List.not_mem_nil]
    unfold GatherDims.start GatherDims.offCoord
    have h1 : (1 : Fin 2) ∉ gather_S131072x3_S2x8000000x1_S2x8000000x3_2_0_n_n_0_2_13.startIndexMap := by
      show (1 : Fin 2) ∉ ([0] : List (Fin 2)); decide
    have h2 : (1 : Fin 2) ∈ gather_S131072x3_S2x8000000x1_S2x8000000x3_2_0_n_n_0_2_13.sKept := by
      show (1 : Fin 2) ∈ Shape.kept (⟨2, ![131072, 3]⟩ : Shape) ([0] ++ []); decide
    rw [dif_neg h1, dif_pos h2, Nat.zero_add]
    rfl

end Rows

end Cert.GatherRows

end
-- ==== Proof.RefValue.lean ====
/-
  What the reference computes, index by index.

  The reference flattens the positions to `[131072, 3]`, wraps the index words the numpy way, gathers one row per
  entry of the pair list, takes the two halves of the gathered `[2, 8000000, 3]` array and subtracts them: entry
  `(p, k)` is coordinate `k` of atom `idx[0, p]` less coordinate `k` of atom `idx[1, p]` — `PairGeometry.pairDisp`.
  Its norm squares that, sums the three coordinates from zero and takes the root — `PairGeometry.pairDist`.
  Nothing is assumed of the index words: the gather clamps whatever it is given.
-/
import proofs.«424242_j4904852652341_3_alg».proof.Proof.Gen.ReferenceIdeal.Read
import proofs.«424242_j4904852652341_3_alg».proof.Proof.PairGeometry
import proofs.«424242_j4904852652341_3_alg».proof.Proof.GatherRows
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.PairGeometry

variable (pos : FVec Ideal SPos .f32) (idx : IVec SPairs 32)

/-- The start index the gather is handed for entry `i` of the pair list is jnp's wrap of the index word. -/
theorem wrapped_apply (i : S2x8000000.Idx) : val_main_v5 (F := Ideal) idx i = wrapRow (idx i) := by
  rw [val_main_v5_apply, val_main_v2_apply, val_main_v4_apply, val_main_v1_apply, val_main_v3_apply,
    val_main_c_apply, val_main_c_0_apply]
  rfl

/-- Row `a`, column `k` of the flattened table is coordinate `k` of atom `a`. -/
theorem flat_apply (a : Fin 131072) (k : Fin 3) :
    val_main_v0 (F := Ideal) pos (ix2 a k) = coord pos a k := by
  rw [val_main_v0_apply]
  unfold coord
  refine congrArg pos (funext fun d => Fin.ext ?_)
  have ha := a.isLt
  have hk := k.isLt
  match d with
  | ⟨0, _⟩ => show (a.val * 3 + k.val) / 3072 = a.val / 1024; omega
  | ⟨1, _⟩ => show (a.val * 3 + k.val) / 3 % 1024 = a.val % 1024; omega
  | ⟨2, _⟩ => show (a.val * 3 + k.val) % 3 = k.val; omega

/-- The gathered array at `(s, p, k)`: coordinate `k` of the atom that entry `(s, p)` of the pair list names. -/
theorem gathered_apply (j : S2x8000000x3.Idx) :
    val_main_v7 (F := Ideal) pos idx j = coord pos (rowOf (idx (ix2 (j 0) (j 1)))) (j 2) := by
  unfold val_main_v7 Host.gather
  rw [Cert.GatherRows.rows_operandIdx]
  have e : val_main_v6 (F := Ideal) idx (ix3 (j 0) (j 1) 0) = wrapRow (idx (ix2 (j 0) (j 1))) := by
    rw [val_main_v6_apply, wrapped_apply]
    refine congrArg (fun i => wrapRow (idx i)) (funext fun d => Fin.ext ?_)
    match d with
    | ⟨0, _⟩ => rfl
    | ⟨1, _⟩ => rfl
  have e' : (ix2 ⟨min (val_main_v6 (F := Ideal) idx (ix3 (j 0) (j 1) 0)).toInt.toNat 131071, by omega⟩ (j 2) : S131072x3.Idx)
      = ix2 (rowOf (idx (ix2 (j 0) (j 1)))) (j 2) := by
    refine funext fun d => Fin.ext ?_
    match d with
    | ⟨0, _⟩ => show min (val_main_v6 (F := Ideal) idx (ix3 (j 0) (j 1) 0)).toInt.toNat 131071 = _; rw [e]; rfl
    | ⟨1, _⟩ => rfl
  rw [e']
  exact flat_apply pos _ _

/-- THE DISPLACEMENTS: the reference's third result is `pairDisp`. -/
theorem displacement_eq : val_main_v12 (F := Ideal) pos idx = pairDisp pos idx := by
  funext i
  have hi0 : (i 0).val < 8000000 := (i 0).isLt
  have hi1 : (i 1).val < 3 := (i 1).isLt
  rw [val_main_v12_apply, val_main_v9_apply, val_main_v8_apply, val_main_v11_apply, val_main_v10_apply,
    gathered_apply, gathered_apply]
  unfold pairDisp
  have c1 : ∀ (x y : Fin 131072) (k k' : Fin 3), x = y → k = k' → coord pos x k = coord pos y k' := by
    intro x y k k' h h'; rw [h, h']
  have hk : ∀ (k : Fin 3), k.val = ((i 0).val * 3 + (i 1).val) % 3 → k = i 1 := by
    intro k h; apply Fin.ext; show k.val = (i 1).val; omega
  have hp : ∀ (s : Fin 2) (p : Fin 8000000), p.val = ((i 0).val * 3 + (i 1).val) / 3 % 8000000 →
      (ix2 s p : S2x8000000.Idx) = ix2 s (i 0) := by
    intro s p h; refine funext fun d => Fin.ext ?_
    match d with
    | ⟨0, _⟩ => rfl
    | ⟨1, _⟩ => show p.val = (i 0).val; omega
  show coord pos _ _ - coord pos _ _ = coord pos _ _ - coord pos _ _
  refine congrArg₂ (· - ·) (c1 _ _ _ _ (congrArg (fun z => rowOf (idx z)) ?_) (hk _ rfl))
    (c1 _ _ _ _ (congrArg (fun z => rowOf (idx z)) ?_) (hk _ rfl))
  · exact hp _ _ rfl
  · exact hp _ _ rfl

/-- THE DISTANCES: the reference's second result is `pairDist` — zero plus the sum of the three squares, rooted. -/
theorem distance_eq : val_main_v13 (F := Ideal) pos idx = pairDist pos idx := by
  funext i
  rw [val_main_v13_apply, val_main_call0_v1_apply]
  simp only [val_main_call0_v0_apply, displacement_eq, val_main_call0_cst_apply, Ideal.hostUnary_sqrt_def,
    Ideal.mulf_def, Ideal.ofBits_def, Ideal.ofBits_zero_f32, zero_add]
  unfold pairDist
  refine congrArg Ideal.sqrt (Finset.sum_congr rfl fun k _ => ?_)
  have e : (idx_main_call0_v1 i k : S8000000x3.Idx) = ix2 (i 0) k := by
    refine funext fun d => Fin.ext ?_
    match d with
    | ⟨0, _⟩ => rfl
    | ⟨1, _⟩ => rfl
  rw [e]
  rfl

end Cert.ReferenceIdeal.RefValue

end
-- ==== Proof.TableColumns.lean ====
/-
  The two operand arrays of the kernel's one region, index by index.

  Before the region the wrapper transposes the positions to the table `[3, 131072]` (row `k`, column `a` is
  coordinate `k` of atom `a`), cuts the pair list into its two rows, and takes columns of the table with
  jnp.take in its default mode: the index word wrapped the numpy way, the gather (which clamps), a range test
  `0 ≤ w' ≤ 131071` of the wrapped word, and a NaN fill where the test fails.  For index words that name rows of
  the table the test passes everywhere, so entry `(k, p)` of operand `s` is coordinate `k` of the atom that entry
  `(s, p)` of the pair list names.
-/
import proofs.«424242_j4904852652341_3_alg».proof.Proof.Gen.KernelIdeal.Frame
import proofs.«424242_j4904852652341_3_alg».proof.Proof.PairGeometry
import proofs.«424242_j4904852652341_3_alg».proof.Proof.GatherRows
import Idealize.ShloMosaic.Lib.Pipeline.Value
import Idealize.ShloMosaic.Lib.StableHlo.Run
import Idealize.ShloMosaic.Lib.ValueIdx
import Idealize.ShloMosaic.Lib.Affine
import Idealize.ShloMosaic.PureOps.Reduce

noncomputable section

open Idealize.ShloMosaic Idealize.ShloMosaic.TcCoe Idealize.SL.Sem Idealize.ShloMosaic.ValueIdx

namespace Cert.KernelIdeal.Columns

open Cert.KernelIdeal Cert.KernelIdeal.Gen Cert.PairGeometry

/-! ## A conjunction of ones is one -/

theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a (List.mem_cons.mpr (Or.inl rfl))]
    decide

/-- A `stablehlo.reduce` by `and` from `true` over an array of ones is one at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun i _ => hx i)

/-! ## The host stages before the region, as functions -/

section Stages
variable {F : FTy → Type} [FloatOps F]

/-- The table transposed and flattened: `[3, 131072]`. -/
def tableT (pos : FVec F S128x1024x3 .f32) : FVec F S3x131072 .f32 :=
  shapeCast S3x131072 (transpose S3x128x1024 [2, 0, 1] pos transposes_S128x1024x3_S3x128x1024_2_0_1)
    shapeCasts_S3x128x1024_S3x131072

/-- Row 0 of the pair list, as a vector. -/
def firstAtoms (idx : IVec S2x8000000 32) : IVec S8000000 32 :=
  shapeCast S8000000 (extractStridedSlice S1x8000000 ![0, 0] idx slices_S2x8000000_S1x8000000_0_0)
    shapeCasts_S1x8000000_S8000000

/-- Row 1 of the pair list, as a vector. -/
def secondAtoms (idx : IVec S2x8000000 32) : IVec S8000000 32 :=
  shapeCast S8000000 (extractStridedSlice S1x8000000 ![1, 0] idx slices_S2x8000000_S1x8000000_1_0)
    shapeCasts_S1x8000000_S8000000

/-- The index words wrapped the numpy way, as the `[8000000, 1]` column of start indices the gather takes. -/
def startColumn (ids : IVec S8000000 32) : IVec S8000000x1 32 :=
  broadcastInDim S8000000x1 ![0] bcast_S8000000_S8000000x1_0
    (select (cmpi .slt ids (broadcastInDim S8000000 ![] bcast_S_S8000000 (constantI S_ 32 0#32)))
      (addi ids (broadcastInDim S8000000 ![] bcast_S_S8000000 (constantI S_ 32 131072#32))) ids)

/-- The range test of the fill mode on a column of start indices: per pair, the word is in `[0, 131071]`. -/
def rangeTest (col : IVec S8000000x1 32) : IVec S8000000 1 :=
  Host.reduce IntOp.andi
    (andi (cmpi .sge col (broadcastInDim S8000000x1 ![] bcast_S_S8000000x1 (constantI S_ 32 0#32)))
      (cmpi .sle col (broadcastInDim S8000000x1 ![0, 1] bcast_S1x1_S8000000x1_0_1
        (broadcastInDim S1x1 ![1] bcast_S1_S1x1_1 (constantI S1 32 131071#32)))))
    (constantI S_ 1 1#1) reducesTo_S8000000x1_S8000000_d1 h_S_

/-- The range test of the wrapped index words. -/
def inRange (ids : IVec S8000000 32) : IVec S8000000 1 := rangeTest (startColumn ids)

/-- The gather of the table's columns at a column of start indices, filled with NaN where the test `ok` fails. -/
def fillTake (tbl : FVec F S3x131072 .f32) (col : IVec S8000000x1 32) (ok : IVec S8000000 1) : FVec F S3x8000000 .f32 :=
  select (broadcastInDim S3x8000000 ![1] bcast_S8000000_S3x8000000_1 ok)
    (Host.gather gather_S3x131072_S8000000x1_S3x8000000_0_1_n_n_1_1_31 tbl col)
    (broadcastInDim S3x8000000 ![] bcast_S_S3x8000000 (constant S_ .f32 0x7FC00000#32))

/-- jnp.take of the table's columns in fill mode. -/
def takeColumns (tbl : FVec F S3x131072 .f32) (ids : IVec S8000000 32) : FVec F S3x8000000 .f32 :=
  fillTake tbl (startColumn ids) (inRange ids)

/-! The host lines before the region come in three stretches: six lines of the wrapper, then the two takes.
    Each stretch is read over an arbitrary memory `W`, and the stretches are chained. -/

theorem after_append (l l' : List (HloOp τ sig (Elt F))) (W : Valuation τ sig (Elt F)) :
    StableHlo.after (l ++ l') W = StableHlo.after l' (StableHlo.after l W) := by
  induction l generalizing W with
  | nil => rfl
  | cons op l ih => exact ih _

/-- After the wrapper's first six lines: the transposed table, -/
theorem prefix_table (W : Valuation τ sig (Elt F)) :
    (StableHlo.after hostOps0 W (Proc.devRef .tc main_v1) : FVec F S3x131072 .f32)
      = tableT (W (Proc.devRef .tc main_arg0)) := by
  after_results
  rfl

/-- the first atoms, -/
theorem prefix_first (W : Valuation τ sig (Elt F)) :
    (StableHlo.after hostOps0 W (Proc.devRef .tc main_v3) : IVec S8000000 32)
      = firstAtoms (W (Proc.devRef .tc main_arg1)) := by
  after_results
  rfl

/-- and the second atoms. -/
theorem prefix_second (W : Valuation τ sig (Elt F)) :
    (StableHlo.after hostOps0 W (Proc.devRef .tc main_v5) : IVec S8000000 32)
      = secondAtoms (W (Proc.devRef .tc main_arg1)) := by
  after_results
  rfl

/-! The first take is 23 lines; they are read in three stretches — the start column (lines 1 to 8), the range test
    (lines 9 to 18), the gather and the fill (lines 19 to 23) — each over an arbitrary memory `W`. -/

theorem first_split (W : Valuation τ sig (Elt F)) :
    StableHlo.after hostOps0_1 W
      = StableHlo.after (hostOps0_1.drop 18) (StableHlo.after ((hostOps0_1.drop 8).take 10) (StableHlo.after (hostOps0_1.take 8) W)) := rfl

theorem first_column (W : Valuation τ sig (Elt F)) :
    (StableHlo.after (hostOps0_1.take 8) W (Proc.devRef .tc main_call0_v5) : IVec S8000000x1 32)
      = startColumn (W (Proc.devRef .tc main_v3)) := by
  dsimp only [hostOps0_1, List.take]
  after_results
  rfl

theorem first_column_keeps (W : Valuation τ sig (Elt F)) :
    StableHlo.after (hostOps0_1.take 8) W (Proc.devRef .tc main_v1) = W (Proc.devRef .tc main_v1) := by
  dsimp only [hostOps0_1, List.take]
  after_results

theorem first_test (W : Valuation τ sig (Elt F)) :
    (StableHlo.after ((hostOps0_1.drop 8).take 10) W (Proc.devRef .tc main_call0_v12) : IVec S8000000 1)
      = rangeTest (W (Proc.devRef .tc main_call0_v5)) := by
  dsimp only [hostOps0_1, List.take, List.drop]
  after_results
  unfold rangeTest
  refine (cast_eq _ _).trans ?_
  refine congrArg₂ (fun x v => Host.reduce IntOp.andi x v reducesTo_S8000000x1_S8000000_d1 h_S_) ?_ ?_
  · rfl
  · rfl

theorem first_test_keeps_column (W : Valuation τ sig (Elt F)) :
    StableHlo.after ((hostOps0_1.drop 8).take 10) W (Proc.devRef .tc main_call0_v5) = W (Proc.devRef .tc main_call0_v5) := by
  dsimp only [hostOps0_1, List.take, List.drop]
  after_results

theorem first_test_keeps_table (W : Valuation τ sig (Elt F)) :
    StableHlo.after ((hostOps0_1.drop 8).take 10) W (Proc.devRef .tc main_v1) = W (Proc.devRef .tc main_v1) := by
  dsimp only [hostOps0_1, List.take, List.drop]
  after_results

theorem first_fill (W : Valuation τ sig (Elt F)) :
    (StableHlo.after (hostOps0_1.drop 18) W (Proc.devRef .tc main_v6) : FVec F S3x8000000 .f32)
      = fillTake (W (Proc.devRef .tc main_v1)) (W (Proc.devRef .tc main_call0_v5)) (W (Proc.devRef .tc main_call0_v12)) := by
  dsimp only [hostOps0_1, List.drop]
  after_results
  rfl

/-- The first take's result, from whatever the table and the index vector hold. -/
theorem take_first (W : Valuation τ sig (Elt F)) :
    (StableHlo.after hostOps0_1 W (Proc.devRef .tc main_v6) : FVec F S3x8000000 .f32)
      = takeColumns (W (Proc.devRef .tc main_v1)) (W (Proc.devRef .tc main_v3)) := by
  rw [first_split, first_fill, first_test, first_test_keeps_column, first_test_keeps_table, first_column,
    first_column_keeps]
  rfl

/-! The second take is 23 lines; they are read in three stretches — the start column (lines 1 to 8), the range test
    (lines 9 to 18), the gather and the fill (lines 19 to 23) — each over an arbitrary memory `W`. -/

theorem second_split (W : Valuation τ sig (Elt F)) :
    StableHlo.after hostOps0_2 W
      = StableHlo.after (hostOps0_2.drop 18) (StableHlo.after ((hostOps0_2.drop 8).take 10) (StableHlo.after (hostOps0_2.take 8) W)) := rfl

theorem second_column (W : Valuation τ sig (Elt F)) :
    (StableHlo.after (hostOps0_2.take 8) W (Proc.devRef .tc main_call1_v5) : IVec S8000000x1 32)
      = startColumn (W (Proc.devRef .tc main_v5)) := by
  dsimp only [hostOps0_2, List.take]
  after_results
  rfl

theorem second_column_keeps (W : Valuation τ sig (Elt F)) :
    StableHlo.after (hostOps0_2.take 8) W (Proc.devRef .tc main_v1) = W (Proc.devRef .tc main_v1) := by
  dsimp only [hostOps0_2, List.take]
  after_results

theorem second_test (W : Valuation τ sig (Elt F)) :
    (StableHlo.after ((hostOps0_2.drop 8).take 10) W (Proc.devRef .tc main_call1_v12) : IVec S8000000 1)
      = rangeTest (W (Proc.devRef .tc main_call1_v5)) := by
  dsimp only [hostOps0_2, List.take, List.drop]
  after_results
  unfold rangeTest
  refine (cast_eq _ _).trans ?_
  refine congrArg₂ (fun x v => Host.reduce IntOp.andi x v reducesTo_S8000000x1_S8000000_d1 h_S_) ?_ ?_
  · rfl
  · rfl

theorem second_test_keeps_column (W : Valuation τ sig (Elt F)) :
    StableHlo.after ((hostOps0_2.drop 8).take 10) W (Proc.devRef .tc main_call1_v5) = W (Proc.devRef .tc main_call1_v5) := by
  dsimp only [hostOps0_2, List.take, List.drop]
  after_results

theorem second_test_keeps_table (W : Valuation τ sig (Elt F)) :
    StableHlo.after ((hostOps0_2.drop 8).take 10) W (Proc.devRef .tc main_v1) = W (Proc.devRef .tc main_v1) := by
  dsimp only [hostOps0_2, List.take, List.drop]
  after_results

theorem second_fill (W : Valuation τ sig (Elt F)) :
    (StableHlo.after (hostOps0_2.drop 18) W (Proc.devRef .tc main_v7) : FVec F S3x8000000 .f32)
      = fillTake (W (Proc.devRef .tc main_v1)) (W (Proc.devRef .tc main_call1_v5)) (W (Proc.devRef .tc main_call1_v12)) := by
  dsimp only [hostOps0_2, List.drop]
  after_results
  rfl

/-- The second take's result, from whatever the table and the index vector hold. -/
theorem take_second (W : Valuation τ sig (Elt F)) :
    (StableHlo.after hostOps0_2 W (Proc.devRef .tc main_v7) : FVec F S3x8000000 .f32)
      = takeColumns (W (Proc.devRef .tc main_v1)) (W (Proc.devRef .tc main_v5)) := by
  rw [second_split, second_fill, second_test, second_test_keeps_column, second_test_keeps_table, second_column,
    second_column_keeps]
  rfl

/-- The first take writes neither the table nor the second atoms; -/
theorem first_keeps_table (W : Valuation τ sig (Elt F)) :
    StableHlo.after hostOps0_1 W (Proc.devRef .tc main_v1) = W (Proc.devRef .tc main_v1) := by
  rw [first_split]
  dsimp only [hostOps0_1, List.take, List.drop]
  after_results

theorem first_keeps_second (W : Valuation τ sig (Elt F)) :
    StableHlo.after hostOps0_1 W (Proc.devRef .tc main_v5) = W (Proc.devRef .tc main_v5) := by
  rw [first_split]
  dsimp only [hostOps0_1, List.take, List.drop]
  after_results

/-- the second take does not write the first take's result. -/
theorem second_keeps (W : Valuation τ sig (Elt F)) :
    StableHlo.after hostOps0_2 W (Proc.devRef .tc main_v6) = W (Proc.devRef .tc main_v6) := by
  rw [second_split]
  dsimp only [hostOps0_2, List.take, List.drop]
  after_results

variable (m : (ℓ : Loc nD τ sig) → Buf (Elt F) ℓ)

/-- The region's first operand, as it finds it: the columns of the table at the first atoms. -/
theorem operand0_eq (c : Dev nD) :
    (V m c main_v6 : FVec F S3x8000000 .f32)
      = takeColumns (tableT (m ((c : Thread nD τ).loc main_arg0))) (firstAtoms (m ((c : Thread nD τ).loc main_arg1))) := by
  dsimp only [V, V0]
  simp only [List.flatten_cons, List.flatten_nil, List.append_nil]
  rw [after_append, after_append, second_keeps, take_first, prefix_table, prefix_first]

/-- The region's second operand: the columns of the table at the second atoms. -/
theorem operand1_eq (c : Dev nD) :
    (V m c main_v7 : FVec F S3x8000000 .f32)
      = takeColumns (tableT (m ((c : Thread nD τ).loc main_arg0))) (secondAtoms (m ((c : Thread nD τ).loc main_arg1))) := by
  dsimp only [V, V0]
  simp only [List.flatten_cons, List.flatten_nil, List.append_nil]
  rw [after_append, after_append, take_second, first_keeps_table, first_keeps_second, prefix_table, prefix_second]

end Stages

/-! ## The stages read at an index, at the extended reals -/

/-- Row `k`, column `a` of the table is coordinate `k` of atom `a`. -/
theorem tableT_apply (pos : FVec Ideal S128x1024x3 .f32) (k : Fin 3) (a : Fin 131072) :
    tableT pos (ix2 k a) = coord pos a k := by
  unfold tableT coord
  have ha := a.isLt
  have hk := k.isLt
  rw [shapeCast_apply _ shapeCasts_S3x128x1024_S3x131072 (ix2 k a)
    (ix3 k ⟨a.val / 1024, by omega⟩ ⟨a.val % 1024, Nat.mod_lt _ (by decide)⟩ : S3x128x1024.Idx)
    (by rewrite [Shape.rowMajor_val_three, Shape.rowMajor_val_two]
        show (k.val * 128 + a.val / 1024) * 1024 + a.val % 1024 = k.val * 131072 + a.val
        omega)]
  refine transpose_apply [2, 0, 1] pos transposes_S128x1024x3_S3x128x1024_2_0_1 _ _ (fun b => ?_)
  match b with
  | ⟨0, _⟩ => rfl
  | ⟨1, _⟩ => rfl
  | ⟨2, _⟩ => rfl

/-- Entry `p` of the first atoms is entry `(0, p)` of the pair list. -/
theorem firstAtoms_apply (idx : IVec S2x8000000 32) (p : Fin 8000000) :
    firstAtoms idx (ix1 p) = idx (ix2 0 p) := by
  unfold firstAtoms
  rw [shapeCast_apply _ shapeCasts_S1x8000000_S8000000 (ix1 p) (ix2 (0 : Fin 1) p : S1x8000000.Idx)
    (by rewrite [Shape.rowMajor_val_two, Shape.rowMajor_val_one]
        show 0 * 8000000 + p.val = p.val
        omega)]
  refine extractStridedSlice_apply ![0, 0] idx slices_S2x8000000_S1x8000000_0_0 _ (ix2 0 p) (fun a => ?_)
  match a with
  | ⟨0, _⟩ => rfl
  | ⟨1, _⟩ => show p.val = 0 + p.val; omega

/-- Entry `p` of the second atoms is entry `(1, p)` of the pair list. -/
theorem secondAtoms_apply (idx : IVec S2x8000000 32) (p : Fin 8000000) :
    secondAtoms idx (ix1 p) = idx (ix2 1 p) := by
  unfold secondAtoms
  rw [shapeCast_apply _ shapeCasts_S1x8000000_S8000000 (ix1 p) (ix2 (0 : Fin 1) p : S1x8000000.Idx)
    (by rewrite [Shape.rowMajor_val_two, Shape.rowMajor_val_one]
        show 0 * 8000000 + p.val = p.val
        omega)]
  refine extractStridedSlice_apply ![1, 0] idx slices_S2x8000000_S1x8000000_1_0 _ (ix2 1 p) (fun a => ?_)
  match a with
  | ⟨0, _⟩ => rfl
  | ⟨1, _⟩ => show p.val = 0 + p.val; omega

/-- The start index of pair `p` is the wrapped index word. -/
theorem startColumn_apply (ids : IVec S8000000 32) (p : Fin 8000000) (u : Fin 1) :
    startColumn ids (ix2 p u) = wrapRow (ids (ix1 p)) := by
  unfold startColumn
  rw [broadcastInDim_apply ![0] bcast_S8000000_S8000000x1_0 _ (ix2 p u) (ix1 p) (fun a => by
    match a with
    | ⟨0, _⟩ => show p.val = if (8000000 : Nat) = 1 then 0 else p.val; rw [if_neg (by decide)])]
  rfl

/-- For index words that name rows of the table the range test passes at every pair. -/
theorem inRange_one (ids : IVec S8000000 32) (hin : ∀ p : Fin 8000000, InTable (ids (ix1 p))) (j : S8000000.Idx) :
    inRange ids j = 1#1 := by
  unfold inRange rangeTest
  refine reduce_andi_one _ _ _ _ j rfl (fun i => ?_)
  obtain ⟨p, u, rfl⟩ : ∃ (p : Fin 8000000) (u : Fin 1), i = ix2 p u := ⟨i 0, i 1, eq_ix2 i⟩
  show IntOp.andi (IntOp.cmpi .sge (startColumn ids (ix2 p u)) _) (IntOp.cmpi .sle (startColumn ids (ix2 p u)) _) = 1#1
  rw [startColumn_apply]
  exact IntOp.andi_eq_one.mpr ⟨(hin p).ge_zero, (hin p).le_last⟩

/-- THE TAKE, for index words inside the table: entry `(k, p)` is the table's at `(k, row of ids[p])`. -/
theorem takeColumns_apply (tbl : FVec Ideal S3x131072 .f32) (ids : IVec S8000000 32)
    (hin : ∀ p : Fin 8000000, InTable (ids (ix1 p))) (k : Fin 3) (p : Fin 8000000) :
    takeColumns tbl ids (ix2 k p) = tbl (ix2 k (rowOf (ids (ix1 p)))) := by
  unfold takeColumns fillTake
  rw [select_apply]
  have hm : broadcastInDim S3x8000000 ![1] bcast_S8000000_S3x8000000_1 (inRange ids) (ix2 k p) = 1#1 := by
    rw [broadcastInDim_apply ![1] bcast_S8000000_S3x8000000_1 _ (ix2 k p) (ix1 p) (fun a => by
      match a with
      | ⟨0, _⟩ => show p.val = if (8000000 : Nat) = 1 then 0 else p.val; rw [if_neg (by decide)])]
    exact inRange_one ids hin _
  rw [hm, select_one]
  unfold Host.gather
  rw [Cert.GatherRows.columns_operandIdx]
  refine congrArg tbl (funext fun d => Fin.ext ?_)
  match d with
  | ⟨0, _⟩ => rfl
  | ⟨1, _⟩ =>
    show min (startColumn ids (ix2 p 0)).toInt.toNat 131071 = min (wrapRow (ids (ix1 p))).toInt.toNat 131071
    exact congrArg (fun w : BitVec 32 => min w.toInt.toNat 131071) (startColumn_apply ids p 0)

end Cert.KernelIdeal.Columns

end
-- ==== Proof.BlockValue.lean ====
/-
  What the kernel's region writes, and what the wrapper makes of it.

  The region walks the 8000000 pairs in 100 blocks of 80000 columns.  At block `t` it loads columns
  `80000 t … 80000 t + 79999` of the two operand arrays `A, B : [3, 8000000]`, stores their difference into the
  same columns of the first result, and stores the root of the column sums of the squared differences into the
  same columns of the second result `[1, 8000000]`.  The blocks tile both results, so after the run the first
  result is `A − B` everywhere (`diffT`) and the second the column norms of `A − B` (`normT`).
-/
import proofs.«424242_j4904852652341_3_alg».proof.Proof.Gen.KernelIdeal.Frame
import proofs.«424242_j4904852652341_3_alg».proof.Proof.PairGeometry
import proofs.«424242_j4904852652341_3_alg».proof.Proof.TableColumns
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Columns Cert.PairGeometry

/-! ## The two results as functions of the operand arrays -/

/-- The differences, entry by entry. -/
def diffT (A B : FVec Ideal S3x8000000 .f32) : FVec Ideal S3x8000000 .f32 := fun i => A i - B i

/-- The column norms of the differences, as a `[1, 8000000]` row. -/
def normT (A B : FVec Ideal S3x8000000 .f32) : FVec Ideal S1x8000000 .f32 := fun i =>
  Ideal.sqrt (∑ k : Fin 3, (A (ix2 k ⟨(i 1).val, (i 1).isLt⟩) - B (ix2 k ⟨(i 1).val, (i 1).isLt⟩))
    * (A (ix2 k ⟨(i 1).val, (i 1).isLt⟩) - B (ix2 k ⟨(i 1).val, (i 1).isLt⟩)))

/-! ## The body's two stores, at an index -/

theorem hz : (![0, 0] : Fin 2 → Nat) = fun _ => 0 := funext fun a => by fin_cases a <;> rfl

/-- The first store: the two loaded blocks subtracted. -/
theorem diff_payload (x0 x1 : FVec Ideal S3x80000 .f32) (j : S3x80000.Idx) : k0_pay1 (F := Ideal) x0 x1 j = x0 j - x1 j := by
  unfold k0_pay1
  show subf (F := Ideal) (shapeCast S3x80000 x0 shapeCasts_S3x80000_S3x80000) (shapeCast S3x80000 x1 shapeCasts_S3x80000_S3x80000) j = _
  rw [shapeCast_self, shapeCast_self]
  rfl

/-- The second store at column `q`: the root of the sum over the three rows of the squared difference. -/
theorem norm_payload (x0 x1 : FVec Ideal S3x80000 .f32) (u : Fin 1) (q : Fin 80000) :
    k0_pay2 (F := Ideal) x0 x1 (ix2 u q)
      = Ideal.sqrt (∑ k : Fin 3, (x0 (ix2 k q) - x1 (ix2 k q)) * (x0 (ix2 k q) - x1 (ix2 k q))) := by
  unfold k0_pay2
  dsimp only
  unfold Idealize.ShloMosaic.sqrt
  rw [Ideal.sqrt_def]
  refine congrArg Ideal.sqrt ?_
  refine (shapeCast_a_1a_apply _ shapeCasts_S80000_S1x80000 u q).trans ?_
  refine (Ideal.multiReduction_add_single (mulf (F := Ideal) (k0_pay1 x0 x1) (k0_pay1 x0 x1)) (0#32)
    reduces_S3x80000_S80000 _ _ (ix1 q)).trans ?_
  refine Finset.sum_congr rfl fun k _ => ?_
  have e : (reduces_S3x80000_S80000.lift (ix1 q) k : S3x80000.Idx) = ix2 k q := by
    funext d; apply Fin.ext
    match d with
    | ⟨0, _⟩ => rfl
    | ⟨1, _⟩ => rfl
  show k0_pay1 (F := Ideal) x0 x1 (reduces_S3x80000_S80000.lift (ix1 q) k) * k0_pay1 (F := Ideal) x0 x1 (reduces_S3x80000_S80000.lift (ix1 q) k) = _
  rw [e]
  exact congrArg₂ (· * ·) (diff_payload x0 x1 (ix2 k q)) (diff_payload x0 x1 (ix2 k q))

/-! ## Blocks and columns -/

variable (m : (ℓ : Loc nD τ sig) → Buf (Elt Ideal) ℓ) (ρ : Dev nD → PrngReg)

/-- The printed index maps, decided over the grid: every window's block index at point `t` is `(0, t)`. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 100 := lt_of_lt_of_eq t.isLt N_0

/-- Entry `(k, q)` of block `t` of a `[3, 8000000]` array read through the first operand's window is entry
    `(k, 80000 t + q)` of the array. -/
theorem read_block0 (A : FVec Ideal S3x8000000 .f32) (t : Fin cfg0.N) (k : Fin 3) (q : Fin 80000) (p : Fin 8000000)
    (hp : p.val = t.val * 80000 + q.val) :
    (((cfg0.win 0).blk t).view.read (Elt Ideal) A : Vec Ideal S3x80000 .f32) (ix2 k q) = A (ix2 k p) := by
  obtain ⟨e00, e01, -⟩ := index_facts t
  rw [View.read_apply]
  show A _ = A _
  refine congrArg A (funext fun a => Fin.ext ?_)
  match a with
  | ⟨0, _⟩ => show win0_0.index t (0 : Fin 2) * 3 + 1 * k.val = k.val; omega
  | ⟨1, _⟩ => show win0_0.index t (1 : Fin 2) * 80000 + 1 * q.val = p.val; omega

/-- The same through the second operand's window, -/
theorem read_block1 (A : FVec Ideal S3x8000000 .f32) (t : Fin cfg0.N) (k : Fin 3) (q : Fin 80000) (p : Fin 8000000)
    (hp : p.val = t.val * 80000 + q.val) :
    (((cfg0.win 1).blk t).view.read (Elt Ideal) A : Vec Ideal S3x80000 .f32) (ix2 k q) = A (ix2 k p) := by
  obtain ⟨-, -, e10, e11, -⟩ := index_facts t
  rw [View.read_apply]
  show A _ = A _
  refine congrArg A (funext fun a => Fin.ext ?_)
  match a with
  | ⟨0, _⟩ => show win0_1.index t (0 : Fin 2) * 3 + 1 * k.val = k.val; omega
  | ⟨1, _⟩ => show win0_1.index t (1 : Fin 2) * 80000 + 1 * q.val = p.val; omega

/-- through the first result's window, -/
theorem read_block2 (A : FVec Ideal S3x8000000 .f32) (t : Fin cfg0.N) (k : Fin 3) (q : Fin 80000) (p : Fin 8000000)
    (hp : p.val = t.val * 80000 + q.val) :
    (((cfg0.win 2).blk t).view.read (Elt Ideal) A : Vec Ideal S3x80000 .f32) (ix2 k q) = A (ix2 k p) := by
  obtain ⟨-, -, -, -, e20, e21, -⟩ := index_facts t
  rw [View.read_apply]
  show A _ = A _
  refine congrArg A (funext fun a => Fin.ext ?_)
  match a with
  | ⟨0, _⟩ => show win0_2.index t (0 : Fin 2) * 3 + 1 * k.val = k.val; omega
  | ⟨1, _⟩ => show win0_2.index t (1 : Fin 2) * 80000 + 1 * q.val = p.val; omega

/-- and of a `[1, 8000000]` row through the second result's window. -/
theorem read_block3 (A : FVec Ideal S1x8000000 .f32) (t : Fin cfg0.N) (u : Fin 1) (q : Fin 80000) (p : Fin 8000000)
    (hp : p.val = t.val * 80000 + q.val) :
    (((cfg0.win 3).blk t).view.read (Elt Ideal) A : Vec Ideal S1x80000 .f32) (ix2 u q) = A (ix2 (0 : Fin 1) p) := by
  obtain ⟨-, -, -, -, -, -, e30, e31⟩ := index_facts t
  have hu : u.val = 0 := by omega
  rw [View.read_apply]
  show A _ = A _
  refine congrArg A (funext fun a => Fin.ext ?_)
  match a with
  | ⟨0, _⟩ => show win0_3.index t (0 : Fin 2) * 1 + 1 * u.val = 0; omega
  | ⟨1, _⟩ => show win0_3.index t (1 : Fin 2) * 80000 + 1 * q.val = p.val; omega

/-- The two operand blocks at point `t`, as columns of the operand arrays the region finds. -/
theorem block0_apply (c : Dev nD) (t : Fin cfg0.N) (k : Fin 3) (q : Fin 80000) (p : Fin 8000000)
    (hp : p.val = t.val * 80000 + q.val) :
    (iblk m c 0 t : Vec Ideal S3x80000 .f32) (ix2 k q) = (V m c main_v6 : FVec Ideal S3x8000000 .f32) (ix2 k p) :=
  read_block0 (V m c main_v6) t k q p hp

theorem block1_apply (c : Dev nD) (t : Fin cfg0.N) (k : Fin 3) (q : Fin 80000) (p : Fin 8000000)
    (hp : p.val = t.val * 80000 + q.val) :
    (iblk m c 1 t : Vec Ideal S3x80000 .f32) (ix2 k q) = (V m c main_v7 : FVec Ideal S3x8000000 .f32) (ix2 k p) :=
  read_block1 (V m c main_v7) t k q p hp

/-- WHAT POINT `t` WRITES BACK to the first result is block `t` of the differences of the operand arrays. -/
theorem flushed_diff (c : Dev nD) (t : Fin cfg0.N) :
    (dats m 0 c).flushed 2 t = ((cfg0.win 2).blk t).view.read (Elt Ideal) (diffT (V m c main_v6) (V m c main_v7)) := by
  show (cfg0.win 2).cut (grid0.coords t) ((dats m 0 c).after 2 t) = _
  rw [after0_2]
  unfold out0_2
  rw [View.canon_unit_zero hz]
  simp only [View.ld_unit_zero (S := S3x80000) hz]
  have ht := point_lt t
  funext j
  obtain ⟨k, q, rfl⟩ : ∃ (k : Fin 3) (q : Fin 80000), j = ix2 k q := ⟨j 0, j 1, eq_ix2 j⟩
  have hq := q.isLt
  refine (diff_payload (iblk m c 0 t) (iblk m c 1 t) (ix2 k q)).trans ?_
  rw [block0_apply m c t k q ⟨t.val * 80000 + q.val, by omega⟩ rfl,
    block1_apply m c t k q ⟨t.val * 80000 + q.val, by omega⟩ rfl,
    read_block2 (diffT (V m c main_v6) (V m c main_v7)) t k q ⟨t.val * 80000 + q.val, by omega⟩ rfl]
  rfl

/-- WHAT POINT `t` WRITES BACK to the second result is block `t` of the column norms. -/
theorem flushed_norm (c : Dev nD) (t : Fin cfg0.N) :
    (dats m 0 c).flushed 3 t = ((cfg0.win 3).blk t).view.read (Elt Ideal) (normT (V m c main_v6) (V m c main_v7)) := by
  show (cfg0.win 3).cut (grid0.coords t) ((dats m 0 c).after 3 t) = _
  rw [after0_3]
  unfold out0_3
  rw [View.canon_unit_zero hz]
  simp only [View.ld_unit_zero (S := S3x80000) hz]
  have ht := point_lt t
  funext j
  obtain ⟨u, q, rfl⟩ : ∃ (u : Fin 1) (q : Fin 80000), j = ix2 u q := ⟨j 0, j 1, eq_ix2 j⟩
  have hq := q.isLt
  refine (norm_payload (iblk m c 0 t) (iblk m c 1 t) u q).trans ?_
  rw [read_block3 (normT (V m c main_v6) (V m c main_v7)) t u q ⟨t.val * 80000 + q.val, by omega⟩ rfl]
  unfold normT
  refine congrArg Ideal.sqrt (Finset.sum_congr rfl fun k _ => ?_)
  rw [block0_apply m c t k q ⟨t.val * 80000 + q.val, by omega⟩ rfl,
    block1_apply m c t k q ⟨t.val * 80000 + q.val, by omega⟩ rfl]

/-- An index of the first result is in point `t`'s block iff each coordinate is in the block's range. -/
theorem mem_block2 (t : Fin cfg0.N) (i : S3x8000000.Idx) :
    i ∈ ((cfg0.win 2).blk t).view.set ↔ ∀ a : Fin 2, win0_2.index t a * S3x80000.size a ≤ (i a).val
      ∧ (i a).val < win0_2.index t a * S3x80000.size a + S3x80000.size a := by
  show i ∈ ((View.whole main_v8_0).slice (win0_2.rect t)).set ↔ _
  rw [View.set_slice_whole, Rect.mem_set_unit]
  exact Iff.rfl

theorem mem_block3 (t : Fin cfg0.N) (i : S1x8000000.Idx) :
    i ∈ ((cfg0.win 3).blk t).view.set ↔ ∀ a : Fin 2, win0_3.index t a * S1x80000.size a ≤ (i a).val
      ∧ (i a).val < win0_3.index t a * S1x80000.size a + S1x80000.size a := by
  show i ∈ ((View.whole main_v8_1).slice (win0_3.rect t)).set ↔ _
  rw [View.set_slice_whole, Rect.mem_set_unit]
  exact Iff.rfl

/-- Column `p` lies in the block of point `p / 80000`. -/
theorem cover2 (i : S3x8000000.Idx) : ∃ t : Fin cfg0.N, (cfg0.win 2).flush t = true ∧ i ∈ ((cfg0.win 2).blk t).view.set := by
  have h0 : (i 0).val < 3 := (i 0).isLt
  have h1 : (i 1).val < 8000000 := (i 1).isLt
  have hN : cfg0.N = 100 := N_0
  refine ⟨⟨(i 1).val / 80000, by rw [hN]; omega⟩, flush0_2 _, ?_⟩
  rw [mem_block2]
  obtain ⟨-, -, -, -, e20, e21, -⟩ := index_facts ⟨(i 1).val / 80000, by rw [hN]; omega⟩
  intro a
  match a with
  | ⟨0, _⟩ =>
    show win0_2.index _ (0 : Fin 2) * 3 ≤ (i 0).val ∧ (i 0).val < win0_2.index _ (0 : Fin 2) * 3 + 3
    rw [e20]; omega
  | ⟨1, _⟩ =>
    show win0_2.index _ (1 : Fin 2) * 80000 ≤ (i 1).val ∧ (i 1).val < win0_2.index _ (1 : Fin 2) * 80000 + 80000
    rw [e21]; show (i 1).val / 80000 * 80000 ≤ (i 1).val ∧ (i 1).val < (i 1).val / 80000 * 80000 + 80000; omega

theorem cover3 (i : S1x8000000.Idx) : ∃ t : Fin cfg0.N, (cfg0.win 3).flush t = true ∧ i ∈ ((cfg0.win 3).blk t).view.set := by
  have h0 : (i 0).val < 1 := (i 0).isLt
  have h1 : (i 1).val < 8000000 := (i 1).isLt
  have hN : cfg0.N = 100 := N_0
  refine ⟨⟨(i 1).val / 80000, by rw [hN]; omega⟩, flush0_3 _, ?_⟩
  rw [mem_block3]
  obtain ⟨-, -, -, -, -, -, e30, e31⟩ := index_facts ⟨(i 1).val / 80000, by rw [hN]; omega⟩
  intro a
  match a with
  | ⟨0, _⟩ =>
    show win0_3.index _ (0 : Fin 2) * 1 ≤ (i 0).val ∧ (i 0).val < win0_3.index _ (0 : Fin 2) * 1 + 1
    rw [e30]; omega
  | ⟨1, _⟩ =>
    show win0_3.index _ (1 : Fin 2) * 80000 ≤ (i 1).val ∧ (i 1).val < win0_3.index _ (1 : Fin 2) * 80000 + 80000
    rw [e31]; show (i 1).val / 80000 * 80000 ≤ (i 1).val ∧ (i 1).val < (i 1).val / 80000 * 80000 + 80000; omega

/-- THE FIRST RESULT after the run: the differences of the operand arrays. -/
theorem final_diff (c : Dev nD) : (dats m 0 c).arrAt 2 cfg0.N = diffT (V m c main_v6) (V m c main_v7) :=
  (dats m 0 c).arrAt_eq_of_cover 2 (diffT (V m c main_v6) (V m c main_v7)) (fun t _ => flushed_diff m c t) cover2

/-- THE SECOND RESULT after the run: their column norms. -/
theorem final_norm (c : Dev nD) : (dats m 0 c).arrAt 3 cfg0.N = normT (V m c main_v6) (V m c main_v7) :=
  (dats m 0 c).arrAt_eq_of_cover 3 (normT (V m c main_v6) (V m c main_v7)) (fun t _ => flushed_norm m c t) cover3

end Cert.KernelIdeal.Blocks

end
-- ==== Proof.WrapperTail.lean ====
/-
  The wrapper's two lines after the region, and the kernel's run read back.

  After the region the wrapper flattens the `[1, 8000000]` row of column norms to the distances `[8000000]` and
  transposes the `[3, 8000000]` differences to the displacements `[8000000, 3]`.  With the operand arrays read as
  coordinates of the atoms the pair list names (TableColumns) and the region's results as their differences and
  column norms (BlockValue), the two returned arrays are the distances and the displacements of PairGeometry.
-/
import proofs.«424242_j4904852652341_3_alg».proof.Proof.Gen.KernelIdeal.Frame
import proofs.«424242_j4904852652341_3_alg».proof.Proof.PairGeometry
import proofs.«424242_j4904852652341_3_alg».proof.Proof.TableColumns
import proofs.«424242_j4904852652341_3_alg».proof.Proof.BlockValue
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Columns Cert.KernelIdeal.Blocks Cert.PairGeometry

variable (m : (ℓ : Loc nD τ sig) → Buf (Elt Ideal) ℓ) (ρ : Dev nD → PrngReg)

/-! ## The wrapper's two lines after the region -/

/-- After the wrapper's last two lines, over whatever memory `W` the region left: the distances buffer is the
    second result flattened, -/
theorem after_flatten (W : Valuation τ sig (Elt Ideal)) :
    (StableHlo.after hostOps1 W (Proc.devRef .tc main_v9) : FVec Ideal S8000000 .f32)
      = shapeCast S8000000 (W (Proc.devRef .tc main_v8_1)) shapeCasts_S1x8000000_S8000000 := by
  after_results
  rfl

/-- and the displacements buffer the first result transposed. -/
theorem after_transpose (W : Valuation τ sig (Elt Ideal)) :
    (StableHlo.after hostOps1 W (Proc.devRef .tc main_v10) : FVec Ideal S8000000x3 .f32)
      = transpose S8000000x3 [1, 0] (W (Proc.devRef .tc main_v8_0)) transposes_S3x8000000_S8000000x3_1_0 := by
  after_results

/-- The distances the wrapper returns: the norms row flattened. -/
theorem tail_norm (c : Dev nD) :
    Pipeline.afterTail₀ cfgs (dats m) 0 (V0 m) [hostOps1] c main_v9
      = shapeCast S8000000 (normT (V m c main_v6) (V m c main_v7)) shapeCasts_S1x8000000_S8000000 := by
  unfold Pipeline.afterTail₀
  show StableHlo.after hostOps1 _ (Proc.devRef .tc main_v9) = _
  rw [after_flatten]
  have e := (Pipeline.withArrays_arr spec0 launch0.win.arr_inj c (V0 m c)
    (fun w => (dats m 0 c).arrAt w cfg0.N) 3).trans (final_norm m c)
  exact congrArg (fun X : FVec Ideal S1x8000000 .f32 => shapeCast S8000000 X shapeCasts_S1x8000000_S8000000) e

/-- The displacements the wrapper returns: the differences transposed. -/
theorem tail_diff (c : Dev nD) :
    Pipeline.afterTail₀ cfgs (dats m) 0 (V0 m) [hostOps1] c main_v10
      = transpose S8000000x3 [1, 0] (diffT (V m c main_v6) (V m c main_v7)) transposes_S3x8000000_S8000000x3_1_0 := by
  unfold Pipeline.afterTail₀
  show StableHlo.after hostOps1 _ (Proc.devRef .tc main_v10) = _
  rw [after_transpose]
  have e := (Pipeline.withArrays_arr spec0 launch0.win.arr_inj c (V0 m c)
    (fun w => (dats m 0 c).arrAt w cfg0.N) 2).trans (final_diff m c)
  exact congrArg (fun X : FVec Ideal S3x8000000 .f32 => transpose S8000000x3 [1, 0] X transposes_S3x8000000_S8000000x3_1_0) e

/-! ## The two returned arrays as the pair geometry -/

/-- Flattened column norms of coordinate differences are the pair distances. -/
theorem norm_is_dist (A B : FVec Ideal S3x8000000 .f32) (pos : FVec Ideal S128x1024x3 .f32) (idx : IVec S2x8000000 32)
    (hA : ∀ (k : Fin 3) (p : Fin 8000000), A (ix2 k p) = coord pos (rowOf (idx (ix2 0 p))) k)
    (hB : ∀ (k : Fin 3) (p : Fin 8000000), B (ix2 k p) = coord pos (rowOf (idx (ix2 1 p))) k) :
    shapeCast S8000000 (normT A B) shapeCasts_S1x8000000_S8000000 = pairDist pos idx := by
  funext i
  obtain ⟨p, rfl⟩ : ∃ p : Fin 8000000, i = ix1 p := ⟨i 0, eq_ix1 i⟩
  refine (shapeCast_1a_a_apply _ shapeCasts_S1x8000000_S8000000 p).trans ?_
  unfold normT pairDist pairDisp
  refine congrArg Ideal.sqrt (Finset.sum_congr rfl fun k _ => ?_)
  rw [hA, hB]

/-- Transposed coordinate differences are the pair displacements. -/
theorem diff_is_disp (A B : FVec Ideal S3x8000000 .f32) (pos : FVec Ideal S128x1024x3 .f32) (idx : IVec S2x8000000 32)
    (hA : ∀ (k : Fin 3) (p : Fin 8000000), A (ix2 k p) = coord pos (rowOf (idx (ix2 0 p))) k)
    (hB : ∀ (k : Fin 3) (p : Fin 8000000), B (ix2 k p) = coord pos (rowOf (idx (ix2 1 p))) k) :
    transpose S8000000x3 [1, 0] (diffT A B) transposes_S3x8000000_S8000000x3_1_0 = pairDisp pos idx := by
  funext i
  obtain ⟨p, k, rfl⟩ : ∃ (p : Fin 8000000) (k : Fin 3), i = ix2 p k := ⟨i 0, i 1, eq_ix2 i⟩
  refine (transpose_apply [1, 0] (diffT A B) transposes_S3x8000000_S8000000x3_1_0 (ix2 p k) (ix2 k p) (fun b => ?_)).trans ?_
  · match b with
    | ⟨0, _⟩ => rfl
    | ⟨1, _⟩ => rfl
  unfold diffT pairDisp
  rw [hA, hB]

/-! ## The run, read -/

/-- The operand arrays, for index words that name rows of the table. -/
theorem operand0_apply (c : Dev nD) (hin : ∀ i : S2x8000000.Idx, InTable ((m ((c : Thread nD τ).loc main_arg1) : IVec S2x8000000 32) i))
    (k : Fin 3) (p : Fin 8000000) :
    (V m c main_v6 : FVec Ideal S3x8000000 .f32) (ix2 k p)
      = coord (m ((c : Thread nD τ).loc main_arg0)) (rowOf ((m ((c : Thread nD τ).loc main_arg1) : IVec S2x8000000 32) (ix2 0 p))) k := by
  rw [operand0_eq, takeColumns_apply _ _ (fun p' => by rw [firstAtoms_apply]; exact hin _) k p, tableT_apply, firstAtoms_apply]

theorem operand1_apply (c : Dev nD) (hin : ∀ i : S2x8000000.Idx, InTable ((m ((c : Thread nD τ).loc main_arg1) : IVec S2x8000000 32) i))
    (k : Fin 3) (p : Fin 8000000) :
    (V m c main_v7 : FVec Ideal S3x8000000 .f32) (ix2 k p)
      = coord (m ((c : Thread nD τ).loc main_arg0)) (rowOf ((m ((c : Thread nD τ).loc main_arg1) : IVec S2x8000000 32) (ix2 1 p))) k := by
  rw [operand1_eq, takeColumns_apply _ _ (fun p' => by rw [secondAtoms_apply]; exact hin _) k p, tableT_apply, secondAtoms_apply]

/-- THE KERNEL'S RUN, READ: for a pair list whose words name rows of the table, every weakly fair execution ends with
    the distances and the displacements of the pair geometry in the two returned arrays, the arguments unchanged. -/
theorem run (hin : ∀ (c : Dev nD) (i : S2x8000000.Idx), InTable ((m ((c : Thread nD τ).loc main_arg1) : IVec S2x8000000 32) i)) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v9) = pairDist (m ((c.tc : Thread nD τ).loc main_arg0)) (m ((c.tc : Thread nD τ).loc main_arg1))
      ∧ r.2.mem ((c.tc : Thread nD τ).loc main_v10) = pairDisp (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have h1 := ((h c).2 main_arg1 (Pipeline.mem_restRefs_of main_arg1 (by decide) (by decide))).trans (W_main_arg1 m (dats m) c)
    ⟨h1,
      (((h c).2 main_v9 (Pipeline.mem_restRefs_of main_v9 (by decide) (by decide))).trans (tail_norm m c)).trans
        (norm_is_dist _ _ _ _ (operand0_apply m c (hin c)) (operand1_apply m c (hin c))),
      (((h c).2 main_v10 (Pipeline.mem_restRefs_of main_v10 (by decide) (by decide))).trans (tail_diff m c)).trans
        (diff_is_disp _ _ _ _ (operand0_apply m c (hin c)) (operand1_apply m c (hin c))),
      ((h c).2 main_arg0 (Pipeline.mem_restRefs_of main_arg0 (by decide) (by decide))).trans (W_main_arg0 m (dats m) c),
      h1⟩) (run_main m ρ)

end Cert.KernelIdeal.Tail

end
-- ==== Proof.IndexRange.lean ====
/-
  The precondition, read back: every index word names a row of the table.

  The stated precondition is the conjunction of "every position is finite" with
  `all((idx ≥ 0) & (idx < 131072))` over the pair list.  The second conjunct is a reduction by `and` over the whole
  `[2, 8000000]` array that came out one, so each entry's two comparisons are one: `PairGeometry.InTable`.
-/
import proofs.«424242_j4904852652341_3_alg».proof.Pre_finite_inputs
import proofs.«424242_j4904852652341_3_alg».proof.Proof.PairGeometry
import Idealize.ShloMosaic.Lib.ReduceAll
import Idealize.ShloMosaic.Lib.Affine
import Idealize.ShloMosaic.Lib.ValueIdx
import Idealize.ShloMosaic.PureOps.Ideal

noncomputable section

open Idealize.ShloMosaic

namespace Cert.IndexRange

open Cert.Pre_finite_inputs Cert.PairGeometry

variable [Cert.Pre_finite_inputs.Facts]

instance : Subsingleton Cert.Pre_finite_inputs.S_.Idx := ⟨fun _ _ => funext fun d => d.elim0⟩

/-- Under the precondition every entry of the pair list is a word in `[0, 131072)`. -/
theorem inTable_of_pre (pos : FVec Ideal S128x1024x3 .f32) (idx : IVec S2x8000000 32)
    (h : Cert.Pre_finite_inputs.fn (F := Ideal) pos idx = fun _ => 1#1) (i : S2x8000000.Idx) : InTable (idx i) := by
  have h0 := congrFun h ValueIdx.ix0
  dsimp only [Cert.Pre_finite_inputs.fn] at h0
  change IntOp.andi _ _ = 1#1 at h0
  obtain ⟨-, h9⟩ := IntOp.andi_eq_one.mp h0
  have h8 := Host.reduce_andi_all _ _ _ _ _ h9 i
  change IntOp.andi _ _ = 1#1 at h8
  obtain ⟨hge, hlt⟩ := IntOp.andi_eq_one.mp h8
  exact ⟨hge, hlt⟩

end Cert.IndexRange

end
-- ==== Proof.lean ====
/-
  The certificate of the pair kernel: displacements and distances of 8000000 atom pairs.

  Both programs return the pair list itself, the distance of every pair and the displacement of every pair.  The
  reference gathers rows of the flattened positions and subtracts; the kernel's wrapper gathers columns of the
  transposed positions with jnp.take, a Pallas region subtracts and takes column norms block by block, and the
  wrapper transposes back.  Over the extended reals both are the pair geometry of Proof/PairGeometry.lean: the
  reference for every pair list (Proof/RefValue.lean), the kernel for pair lists whose words name rows of the
  table (Proof/TableColumns.lean, Proof/BlockValue.lean, Proof/WrapperTail.lean) — jnp.take fills with NaN where the reference's gather
  clamps, which is why the precondition asks the words to be in range (Proof/IndexRange.lean reads it back).
  A sum of three squares is summed in one order by the region and from zero in another by the host; addition of
  extended reals is commutative and associative, so no finiteness is used.  The three frames are the generated
  frame runs (the reference's: its generated run with the results dropped); nothing was rewritten by the ideal
  pass, so the idealization claim is trivial.
-/
import proofs.«424242_j4904852652341_3_alg».proof.Defs
import proofs.«424242_j4904852652341_3_alg».proof.Proof.Gen.Kernel
import proofs.«424242_j4904852652341_3_alg».proof.Proof.Gen.Kernel.Skeleton
import proofs.«424242_j4904852652341_3_alg».proof.Proof.Gen.Kernel.Launch
import proofs.«424242_j4904852652341_3_alg».proof.Proof.Gen.Kernel.Points
import proofs.«424242_j4904852652341_3_alg».proof.Proof.Gen.Kernel.Frame
import proofs.«424242_j4904852652341_3_alg».proof.Proof.Gen.KernelIdeal
import proofs.«424242_j4904852652341_3_alg».proof.Proof.Gen.KernelIdeal.Skeleton
import proofs.«424242_j4904852652341_3_alg».proof.Proof.Gen.KernelIdeal.Launch
import proofs.«424242_j4904852652341_3_alg».proof.Proof.Gen.KernelIdeal.Points
import proofs.«424242_j4904852652341_3_alg».proof.Proof.Gen.KernelIdeal.Frame
import proofs.«424242_j4904852652341_3_alg».proof.Proof.Gen.ReferenceIdeal
import proofs.«424242_j4904852652341_3_alg».proof.Proof.Gen.Pre_finite_inputs
import proofs.«424242_j4904852652341_3_alg».proof.Proof.Gen.ReferenceIdeal.Run
import proofs.«424242_j4904852652341_3_alg».proof.Proof.Gen.ReferenceIdeal.Read
import proofs.«424242_j4904852652341_3_alg».proof.Proof.PairGeometry
import proofs.«424242_j4904852652341_3_alg».proof.Proof.GatherRows
import proofs.«424242_j4904852652341_3_alg».proof.Proof.RefValue
import proofs.«424242_j4904852652341_3_alg».proof.Proof.TableColumns
import proofs.«424242_j4904852652341_3_alg».proof.Proof.BlockValue
import proofs.«424242_j4904852652341_3_alg».proof.Proof.WrapperTail
import proofs.«424242_j4904852652341_3_alg».proof.Proof.IndexRange
import Idealize.ShloMosaic.Adequacy
import Idealize.ShloMosaic.Init

noncomputable section

namespace Cert.Proof

open Idealize.ShloMosaic Idealize.SL.Sem Cert.PairGeometry

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its generated run with the results dropped. -/
theorem frame_reference : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- Both programs end with the pair list, the pair distances and the pair displacements of the arguments. -/
theorem algebraic : Cert.algebraic_KernelIdeal_ReferenceIdeal := by
  intro m ρ m' ρ' hpre hagree
  have hin : ∀ (c : Dev Cert.KernelIdeal.nD) (i : Cert.KernelIdeal.S2x8000000.Idx),
      InTable ((m ((c.tc : Thread Cert.KernelIdeal.nD Cert.KernelIdeal.τ).loc Cert.KernelIdeal.main_arg1)
        : IVec Cert.KernelIdeal.S2x8000000 32) i) :=
    fun c i => Cert.IndexRange.inTable_of_pre _ _ (hpre c) i
  refine ⟨fun c => m ((c.tc : Thread Cert.KernelIdeal.nD Cert.KernelIdeal.τ).loc Cert.KernelIdeal.main_arg1),
    fun c => pairDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => pairDisp (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ hin, ?_⟩
  refine (θ_run Cert.ReferenceIdeal.defs _ _).mono (fun _ h c => ?_)
    (Cert.ReferenceIdeal.Value.run (F := Ideal) m' ρ')
  obtain ⟨h1, h13, h12, h0, h1'⟩ := h c
  refine ⟨h1.trans (hagree c).2, ?_, ?_, h0, h1'⟩
  · rw [h13, Cert.ReferenceIdeal.Read.val_main_v13_eq, Cert.ReferenceIdeal.RefValue.distance_eq, (hagree c).1, (hagree c).2]
  · rw [h12, Cert.ReferenceIdeal.Read.val_main_v12_eq, Cert.ReferenceIdeal.RefValue.displacement_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
